-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S131072 : Shape := ⟨1, ![131072]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S131072 : S_.BroadcastsInDim S131072 (![] : Fin 0 → Fin S131072.rank)
  reducesTo_S131072_S_d0 : S131072.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S8388608 32) (main_arg2 : FVec F S131072 .f32) (main_arg3 : FVec F S131072 .f32) (main_arg4 : FVec F S4096x4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_v13 main_v16
-- ==== Kernel.lean ====
abbrev S4x2048x4096 : Shape := ⟨3, ![4, 2048, 4096]⟩
abbrev S8388608 : Shape := ⟨1, ![8388608]⟩
abbrev S131072 : Shape := ⟨1, ![131072]⟩
abbrev S4096x4096 : Shape := ⟨2, ![4096, 4096]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S131072x1 : Shape := ⟨2, ![131072, 1]⟩
abbrev S8192x4096 : Shape := ⟨2, ![8192, 4096]⟩
abbrev S1x4096 : Shape := ⟨2, ![1, 4096]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 34
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S131072, .f32⟩
  | .hbm, ⟨3, _⟩ => ⟨S131072, .f32⟩
  | .hbm, ⟨4, _⟩ => ⟨S4096x4096, .f32⟩
  | .hbm, ⟨5, _⟩ => ⟨S4096, .f32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608x1, .i32⟩
  | .hbm, ⟨16, _⟩ => ⟨S8388608x1, .i32⟩
  | .hbm, ⟨17, _⟩ => ⟨S8388608x2, .i32⟩
  | .hbm, ⟨18, _⟩ => ⟨S16777216, .i32⟩
  | .hbm, ⟨19, _⟩ => ⟨S16777216, .f32⟩
  | .hbm, ⟨20, _⟩ => ⟨S131072x128, .f32⟩
  | .hbm, ⟨21, _⟩ => ⟨S131072x1, .f32⟩
  | .hbm, ⟨22, _⟩ => ⟨S131072x128, .f32⟩
  | .hbm, ⟨23, _⟩ => ⟨S131072x128, .f32⟩
  | .hbm, ⟨24, _⟩ => ⟨S131072x1, .f32⟩
  | .hbm, ⟨25, _⟩ => ⟨S131072x128, .f32⟩
  | .hbm, ⟨26, _⟩ => ⟨S131072x128, .f32⟩
  | .hbm, ⟨27, _⟩ => ⟨S4096x4096, .f32⟩
  | .hbm, ⟨28, _⟩ => ⟨S4096x4096, .f32⟩
  | .hbm, ⟨29, _⟩ => ⟨S4096x4096, .bf16⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S4x2048x4096, .f32⟩
  | .local _ .vmem, ⟨0, _⟩ => ⟨S1024x4096, .f32⟩
  | .local _ .vmem, ⟨1, _⟩ => ⟨S1024x4096, .f32⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S131072x128 : S16777216.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S256x4096_S256x1024_0_0 : ∀ a, (![0, 0] : Fin 2 → Nat) a + S256x1024.size a ≤ S256x4096.size a
  h_S256x1024 : 0 < S256x1024.numel
  shapeCasts_S256x1024_S256x1024 : S256x1024.ShapeCasts S256x1024
  inb_S1024x4096_S1024x1024_0_1024 : ∀ a, (![0, 1024] : Fin 2 → Nat) a + S1024x1024.size a ≤ S1024x4096.size a
  inb_S256x4096_S256x1024_0_1024 : ∀ a, (![0, 1024] : Fin 2 → Nat) a + S256x1024.size a ≤ S256x4096.size a
  inb_S1024x4096_S1024x1024_0_2048 : ∀ a, (![0, 2048] : Fin 2 → Nat) a + S1024x1024.size a ≤ S1024x4096.size a
  inb_S256x4096_S256x1024_0_2048 : ∀ a, (![0, 2048] : Fin 2 → Nat) a + S256x1024.size a ≤ S256x4096.size a
  inb_S1024x4096_S1024x1024_0_3072 : ∀ a, (![0, 3072] : Fin 2 → Nat) a + S1024x1024.size a ≤ S1024x4096.size a
  inb_S256x4096_S256x1024_0_3072 : ∀ a, (![0, 3072] : Fin 2 → Nat) a + S256x1024.size a ≤ S256x4096.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x4096_S4x2048x4096 : S8192x4096.ShapeCasts S4x2048x4096
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x4096.size a
  hwx0_3 : ∀ i : grid0.Coords, EltTy.bits .f32 = 32 ∨ (Rect.block (s := S8192x4096) S1024x256.size (cc0_transform_3 i) (hinb0_3 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v21) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8388608 : Shape := ⟨1, ![8388608]⟩
abbrev S131072 : Shape := ⟨1, ![131072]⟩
abbrev S4096x4096 : Shape := ⟨2, ![4096, 4096]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S131072, .f32⟩
  | .hbm, ⟨3, _⟩ => ⟨S131072, .f32⟩
  | .hbm, ⟨4, _⟩ => ⟨S4096x4096, .f32⟩
  | .hbm, ⟨5, _⟩ => ⟨S4096, .f32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608x1, .i32⟩
  | .hbm, ⟨16, _⟩ => ⟨S8388608x1, .i32⟩
  | .hbm, ⟨17, _⟩ => ⟨S8388608x2, .i32⟩
  | .hbm, ⟨18, _⟩ => ⟨S16777216, .i32⟩
  | .hbm, ⟨19, _⟩ => ⟨S16777216, .f32⟩
  | .hbm, ⟨20, _⟩ => ⟨S131072x128, .f32⟩
  | .hbm, ⟨21, _⟩ => ⟨S131072x1, .f32⟩
  | .hbm, ⟨22, _⟩ => ⟨S131072x128, .f32⟩
  | .hbm, ⟨23, _⟩ => ⟨S131072x128, .f32⟩
  | .hbm, ⟨24, _⟩ => ⟨S131072x1, .f32⟩
  | .hbm, ⟨25, _⟩ => ⟨S131072x128, .f32⟩
  | .hbm, ⟨26, _⟩ => ⟨S131072x128, .f32⟩
  | .hbm, ⟨27, _⟩ => ⟨S4096x4096, .f32⟩
  | .hbm, ⟨28, _⟩ => ⟨S4096x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S131072x128 : S16777216.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The kernel program's run with its result named.

  Every weakly fair execution of the program ends with the returned array at what the one host line after the region
  makes of the region's result, and with the six argument arrays as launched.
-/
import proofs.«404815_j29094108463114_3_alg».proof.Proof.Gen.KernelIdeal.Frame

noncomputable section

namespace Cert.KernelIdeal.Run

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The run, read at the returned array and at the arguments. -/
theorem run : θ_run defs (onTc (τ := τ) (main (F := F))) ⟨m, fun _ => 0, ρ⟩ (fun r => ∀ c : Dev nD,
      r.2.mem ((c.tc : Thread nD τ).loc main_v24) = Pipeline.afterTail₀ cfgs (dats m) 0 (V0 m) [hostOps1] c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v24 (Pipeline.mem_restRefs_of main_v24 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.ChunkSum.lean ====
/-
  A sum of 4096 consecutive terms is the sum of its four consecutive quarters of 1024 terms, the quarters added one
  after the other onto zero.

  Only the zero law and the associativity of addition are used, so the statement holds in every commutative additive
  monoid; on the extended reals it therefore holds at the infinities too, and no finiteness of the terms is asked.
-/
import Mathlib.Data.Fintype.BigOperators
import Mathlib.Algebra.BigOperators.Group.Finset.Basic

namespace Cert.ChunkSum

open Finset

/-- The four quarters of a sum over 4096 terms, accumulated from zero in order, are the whole sum. -/
theorem quarters_eq_whole {M : Type} [AddCommMonoid M] (g : ℕ → M) :
    0 + (∑ k : Fin 1024, g k.val) + (∑ k : Fin 1024, g (1024 + k.val)) + (∑ k : Fin 1024, g (2048 + k.val))
        + (∑ k : Fin 1024, g (3072 + k.val))
      = ∑ k : Fin 4096, g k.val := by
  rw [Fin.sum_univ_eq_sum_range g 4096, Fin.sum_univ_eq_sum_range g 1024,
    Fin.sum_univ_eq_sum_range (fun k => g (1024 + k)) 1024, Fin.sum_univ_eq_sum_range (fun k => g (2048 + k)) 1024,
    Fin.sum_univ_eq_sum_range (fun k => g (3072 + k)) 1024, zero_add]
  have h : (4096 : ℕ) = 1024 + 1024 + 1024 + 1024 := rfl
  rw [h, sum_range_add, sum_range_add, sum_range_add]

end Cert.ChunkSum
-- ==== Proof.BodyEntry.lean ====
/-
  What the kernel body leaves in the output block, read at one entry, on the extended reals.

  The body works on a block X of 1024 rows of the left matrix (1024 x 4096), a block Wt of 256 rows of the weight
  (256 x 4096) and a row b of 256 bias entries.  It cuts the 4096 columns into four chunks of 1024; for each chunk it
  multiplies the chunk of X (every row) against the chunk of Wt (every row), both contracted on their columns, into the
  zero array, and adds the four products one after the other onto a zero array; last it adds b to every row.  A
  change of float format is the identity on the extended reals, so entry (p, q) of the stored block is

      0 + sum_{k<1024} X(p,k) Wt(q,k) + sum_{k<1024} X(p,1024+k) Wt(q,1024+k) + ... + b(0,q)
        = sum_{k<4096} X(p,k) Wt(q,k) + b(0,q),

  the four quarters joined by the associativity of addition alone (no entry need be finite).
-/
import proofs.«404815_j29094108463114_3_alg».proof.Proof.Gen.KernelIdeal.Frame
import proofs.«404815_j29094108463114_3_alg».proof.Proof.LibTransposedRhs
import proofs.«404815_j29094108463114_3_alg».proof.Proof.ChunkSum
import Idealize.ShloMosaic.Lib.ValueIdx
import Idealize.ShloMosaic.Lib.Pipeline.Value
import Idealize.ShloMosaic.PureOps.Ideal.Laws

noncomputable section

namespace Cert.KernelIdeal.BodyEntry

open Cert.KernelIdeal Cert.KernelIdeal.Gen Idealize.ShloMosaic Idealize.ShloMosaic.ValueIdx

/-- The offsets of a rectangle that starts at the block's corner are all zero. -/
theorem corner : (![0, 0] : Fin 2 → Nat) = fun _ => 0 := funext fun a => by fin_cases a <;> rfl

/-- Where entry (p, k) of a chunk of Cw columns starting at column o sits in its block: at (p, o + k). -/
theorem chunk_idx {R C Cw : Nat} (o : Nat)
    (inb : ∀ a, (![0, o] : Fin 2 → Nat) a + (⟨2, ![R, Cw]⟩ : Shape).size a ≤ (⟨2, ![R, C]⟩ : Shape).size a)
    (p : Fin R) (k : Fin Cw) (h : o + k.val < C) :
    (Rect.unit (s := (⟨2, ![R, C]⟩ : Shape)) ![0, o] (⟨2, ![R, Cw]⟩ : Shape).size inb).idx (ix2 p k)
      = ix2 p (⟨o + k.val, h⟩ : Fin C) :=
  funext fun a => Fin.ext (by
    match a with
    | ⟨0, _⟩ => show 0 + 1 * p.val = p.val; omega
    | ⟨1, _⟩ => show o + 1 * k.val = o + k.val; omega)

/-- One chunk's product into the zero array at entry (p, q): the sum over the chunk's columns of the left chunk's
    row p against the right chunk's row q. -/
theorem chunk_product (xa : Vec Ideal S1024x1024 .f32) (wa : Vec Ideal S256x1024 .bf16) (p : Fin 1024) (q : Fin 256) :
    matmul (F := Ideal) dot_S1024x1024_S256x1024_S1024x256_1_1_0_0_n_n none
        (truncf .bf16 (shapeCast S1024x1024 xa shapeCasts_S1024x1024_S1024x1024 : FVec Ideal S1024x1024 .f32) bitsLt_bf16_f32)
        (shapeCast S256x1024 wa shapeCasts_S256x1024_S256x1024 : FVec Ideal S256x1024 .bf16)
        (constant S1024x256 .f32 0x00000000#32) (ix2 p q)
      = ∑ k : Fin 1024, (xa (ix2 p k) : EReal) * (wa (ix2 q k) : EReal) := by
  rw [shapeCast_self, shapeCast_self]
  exact Cert.LibTransposedRhs.matmul_transposedRhs_zero_any 1024 1024 256 _ _ p q

/-- The bias row spread over the 1024 rows reads, at (p, q), the row's entry q. -/
theorem bias_spread (b : Vec Ideal S1x256 .f32) (p : Fin 1024) (q : Fin 256) :
    broadcastTo S1024x256 (shapeCast S1x256 b shapeCasts_S1x256_S1x256) broadcasts_S1x256_S1024x256 (ix2 p q)
      = b (ix2 (0 : Fin 1) q) := by
  rw [shapeCast_self]
  exact broadcastTo_apply b broadcasts_S1x256_S1024x256 (ix2 p q) (ix2 (0 : Fin 1) q) fun a => by
    match a with
    | ⟨0, _⟩ => show (0 : Nat) = if (1 : Nat) = 1 then 0 else _; rw [if_pos rfl]
    | ⟨1, _⟩ => show q.val = if (256 : Nat) = 1 then 0 else _; rw [if_neg (by decide)]; rfl

/-- The product of the two blocks' entries in column n (zero past the last column: never read). -/
def colTerm (X : Vec Ideal S1024x4096 .f32) (Wt : Vec Ideal S256x4096 .bf16) (p : Fin 1024) (q : Fin 256) (n : ℕ) : EReal :=
  if h : n < 4096 then (X (ix2 p (⟨n, h⟩ : Fin 4096)) : EReal) * (Wt (ix2 q (⟨n, h⟩ : Fin 4096)) : EReal) else 0

/-- The chunk of columns from o: its product at (p, q) as a sum of column terms. -/
theorem chunk_sum (X : Vec Ideal S1024x4096 .f32) (Wt : Vec Ideal S256x4096 .bf16) (p : Fin 1024) (q : Fin 256)
    (o : Nat) (ho : o + 1024 ≤ 4096)
    (inbX : ∀ a, (![0, o] : Fin 2 → Nat) a + S1024x1024.size a ≤ S1024x4096.size a)
    (inbW : ∀ a, (![0, o] : Fin 2 → Nat) a + S256x1024.size a ≤ S256x4096.size a) :
    (∑ k : Fin 1024, (View.ld X (Rect.unit (s := S1024x4096) ![0, o] S1024x1024.size inbX) (ix2 p k) : EReal)
        * (View.ld Wt (Rect.unit (s := S256x4096) ![0, o] S256x1024.size inbW) (ix2 q k) : EReal))
      = ∑ k : Fin 1024, colTerm X Wt p q (o + k.val) := by
  refine Finset.sum_congr rfl fun k _ => ?_
  have hk : o + k.val < 4096 := by have := k.isLt; omega
  unfold colTerm
  rw [dif_pos hk]
  show (X ((Rect.unit (s := S1024x4096) ![0, o] S1024x1024.size inbX).idx (ix2 p k)) : EReal)
      * (Wt ((Rect.unit (s := S256x4096) ![0, o] S256x1024.size inbW).idx (ix2 q k)) : EReal) = _
  rw [chunk_idx o inbX p k hk, chunk_idx o inbW q k hk]

/-- THE STORED BLOCK AT AN ENTRY: the whole contraction over the 4096 columns, plus the bias entry. -/
theorem stored_entry (X : Vec Ideal S1024x4096 .f32) (Wt : Vec Ideal S256x4096 .bf16) (b : Vec Ideal S1x256 .f32)
    (p : Fin 1024) (q : Fin 256) :
    out0_3 (F := Ideal) X Wt b (ix2 p q)
      = (∑ k : Fin 4096, (X (ix2 p k) : EReal) * (Wt (ix2 q k) : EReal)) + (b (ix2 (0 : Fin 1) q) : EReal) := by
  unfold out0_3
  rw [View.canon_unit_zero corner]
  unfold k0_pay1
  simp only [addf_apply, broadcast_apply]
  rw [chunk_product, chunk_product, chunk_product, chunk_product, bias_spread,
    View.ld_unit_zero (S := S1x256) corner]
  have e0 := chunk_sum X Wt p q 0 (by omega) inb_S1024x4096_S1024x1024_0_0 inb_S256x4096_S256x1024_0_0
  have e1 := chunk_sum X Wt p q 1024 (by omega) inb_S1024x4096_S1024x1024_0_1024 inb_S256x4096_S256x1024_0_1024
  have e2 := chunk_sum X Wt p q 2048 (by omega) inb_S1024x4096_S1024x1024_0_2048 inb_S256x4096_S256x1024_0_2048
  have e3 := chunk_sum X Wt p q 3072 (by omega) inb_S1024x4096_S1024x1024_0_3072 inb_S256x4096_S256x1024_0_3072
  rw [e0, e1, e2, e3]
  have hz : (FloatOps.ofBits (F := Ideal) .f32 0x00000000#32 : EReal) = 0 := Ideal.ofBits_zero_f32
  rw [hz]
  simp only [Nat.zero_add]
  rw [Cert.ChunkSum.quarters_eq_whole (colTerm X Wt p q)]
  congr 1

end Cert.KernelIdeal.BodyEntry

end
-- ==== Proof.RegionValue.lean ====
/-
  The array the kernel's one region leaves, as one function of the three arrays it reads.

  The region runs on a grid of 8 x 16 points.  At point (i, j) the body sees rows 1024 i .. 1024 i + 1023 of the left
  matrix X (8192 x 4096), rows 256 j .. 256 j + 255 of the weight Wt (4096 x 4096), entries 256 j .. 256 j + 255 of the
  bias row b (1 x 4096), and writes block (i, j) of the 8192 x 4096 result: the blocks tile the result, each written
  once.  Entry (p, q) of that block is the whole contraction of X's row 1024 i + p against Wt's row 256 j + q, plus
  b's entry 256 j + q.  So the result array is

      lin X Wt b (r, o) = sum_{k<4096} X(r,k) Wt(o,k) + b(0,o)          at every (r, o).
-/
import proofs.«404815_j29094108463114_3_alg».proof.Proof.BodyEntry

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Every row of X against every row of Wt, contracted on the 4096 columns, plus the bias row. -/
def lin (X : Vec Ideal S8192x4096 .f32) (Wt : Vec Ideal S4096x4096 .bf16) (b : Vec Ideal S1x4096 .f32) :
    Vec Ideal S8192x4096 .f32 :=
  fun i => ((∑ k : Fin 4096, (X (ix2 (i 0 : Fin 8192) k) : EReal) * (Wt (ix2 (i 1 : Fin 4096) k) : EReal))
    + (b (ix2 (0 : Fin 1) (i 1 : Fin 4096)) : EReal) : EReal)

/-- The three arrays as the region finds them: the left matrix, the weight, the bias row. -/
abbrev xArr (c : Dev nD) : Vec Ideal S8192x4096 .f32 := V m c main_v21
abbrev wArr (c : Dev nD) : Vec Ideal S4096x4096 .bf16 := V m c main_v20
abbrev bArr (c : Dev nD) : Vec Ideal S1x4096 .f32 := V m c main_v22

/-- The block indices at a grid point, decided over the grid: the left matrix moves with the result's row block and
    the weight and the bias with its column block; the other block index of each is 0; the result's stay in range. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every block of the result is some point's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-- The result's row block index at a point is at most 7, its column block index at most 15. -/
theorem rowBlock_le (t : Fin cfg0.N) : win0_3.index t (0 : Fin 2) ≤ 7 := (idx_facts t).2.2.2.2.2.2.1
theorem colBlock_le (t : Fin cfg0.N) : win0_3.index t (1 : Fin 2) ≤ 15 := (idx_facts t).2.2.2.2.2.2.2

/-- The array row of row p of point t's blocks, and the array column (weight row, bias entry) of their column q. -/
def rowOf (t : Fin cfg0.N) (p : Fin 1024) : Fin 8192 :=
  ⟨win0_3.index t (0 : Fin 2) * 1024 + p.val, by have := rowBlock_le t; have := p.isLt; omega⟩
def colOf (t : Fin cfg0.N) (q : Fin 256) : Fin 4096 :=
  ⟨win0_3.index t (1 : Fin 2) * 256 + q.val, by have := colBlock_le t; have := q.isLt; omega⟩

/-- Where the entries of point t's four blocks sit in their arrays. -/
theorem emb_out (t : Fin cfg0.N) (p : Fin 1024) (q : Fin 256) :
    ((cfg0.win 3).blk t).view.emb (ix2 p q) = ix2 (rowOf t p) (colOf t q) := by
  funext a; apply Fin.ext
  match a with
  | ⟨0, _⟩ => show win0_3.index t (0 : Fin 2) * 1024 + 1 * p.val = win0_3.index t (0 : Fin 2) * 1024 + p.val; omega
  | ⟨1, _⟩ => show win0_3.index t (1 : Fin 2) * 256 + 1 * q.val = win0_3.index t (1 : Fin 2) * 256 + q.val; omega
theorem emb_x (t : Fin cfg0.N) (p : Fin 1024) (k : Fin 4096) :
    ((cfg0.win 0).blk t).view.emb (ix2 p k) = ix2 (rowOf t p) k := by
  obtain ⟨e00, e01, -⟩ := idx_facts t
  funext a; apply Fin.ext
  match a with
  | ⟨0, _⟩ => show win0_0.index t (0 : Fin 2) * 1024 + 1 * p.val = win0_3.index t (0 : Fin 2) * 1024 + p.val; omega
  | ⟨1, _⟩ => show win0_0.index t (1 : Fin 2) * 4096 + 1 * k.val = k.val; omega
theorem emb_w (t : Fin cfg0.N) (q : Fin 256) (k : Fin 4096) :
    ((cfg0.win 1).blk t).view.emb (ix2 q k) = ix2 (colOf t q) k := by
  obtain ⟨-, -, e10, e11, -⟩ := idx_facts t
  funext a; apply Fin.ext
  match a with
  | ⟨0, _⟩ => show win0_1.index t (0 : Fin 2) * 256 + 1 * q.val = win0_3.index t (1 : Fin 2) * 256 + q.val; omega
  | ⟨1, _⟩ => show win0_1.index t (1 : Fin 2) * 4096 + 1 * k.val = k.val; omega
theorem emb_b (t : Fin cfg0.N) (q : Fin 256) :
    ((cfg0.win 2).blk t).view.emb (ix2 (0 : Fin 1) q) = ix2 (0 : Fin 1) (colOf t q) := by
  obtain ⟨-, -, -, -, e20, e21, -⟩ := idx_facts t
  funext a; apply Fin.ext
  match a with
  | ⟨0, _⟩ => show win0_2.index t (0 : Fin 2) * 1 + 1 * 0 = 0; omega
  | ⟨1, _⟩ => show win0_2.index t (1 : Fin 2) * 256 + 1 * q.val = win0_3.index t (1 : Fin 2) * 256 + q.val; omega

/-- The three input blocks at point t, read at an entry, are the arrays at the entry's place. -/
theorem x_read (c : Dev nD) (t : Fin cfg0.N) (p : Fin 1024) (k : Fin 4096) :
    iblk m c 0 t (ix2 p k) = xArr m c (ix2 (rowOf t p) k) := by
  show xArr m c (((cfg0.win 0).blk t).view.emb (ix2 p k)) = _
  rw [emb_x]
theorem w_read (c : Dev nD) (t : Fin cfg0.N) (q : Fin 256) (k : Fin 4096) :
    iblk m c 1 t (ix2 q k) = wArr m c (ix2 (colOf t q) k) := by
  show wArr m c (((cfg0.win 1).blk t).view.emb (ix2 q k)) = _
  rw [emb_w]
theorem b_read (c : Dev nD) (t : Fin cfg0.N) (q : Fin 256) :
    iblk m c 2 t (ix2 (0 : Fin 1) q) = bArr m c (ix2 (0 : Fin 1) (colOf t q)) := by
  show bArr m c (((cfg0.win 2).blk t).view.emb (ix2 (0 : Fin 1) q)) = _
  rw [emb_b]

/-- lin at an entry given by its row and column. -/
theorem lin_apply (X : Vec Ideal S8192x4096 .f32) (Wt : Vec Ideal S4096x4096 .bf16) (b : Vec Ideal S1x4096 .f32)
    (r : Fin 8192) (o : Fin 4096) :
    lin X Wt b (ix2 r o) = (∑ k : Fin 4096, (X (ix2 r k) : EReal) * (Wt (ix2 o k) : EReal)) + (b (ix2 (0 : Fin 1) o) : EReal) := rfl

/-- What the body leaves at point t, at an entry: lin of the three arrays at the entry's place. -/
theorem body_entry (c : Dev nD) (t : Fin cfg0.N) (p : Fin 1024) (q : Fin 256) :
    out0_3 (iblk m c 0 t) (iblk m c 1 t) (iblk m c 2 t) (ix2 p q)
      = lin (xArr m c) (wArr m c) (bArr m c) (ix2 (rowOf t p) (colOf t q)) := by
  refine (BodyEntry.stored_entry (iblk m c 0 t) (iblk m c 1 t) (iblk m c 2 t) p q).trans ?_
  rw [lin_apply, b_read]
  simp only [x_read, w_read]

/-- WHAT POINT t WRITES BACK is block t of lin of the three arrays. -/
theorem flushed_eq (c : Dev nD) (t : Fin cfg0.N) :
    (dats m 0 c).flushed 3 t
      = ((cfg0.win 3).blk t).view.read (Elt Ideal) (lin (xArr m c) (wArr m c) (bArr m c)) := by
  show (cfg0.win 3).cut (grid0.coords t) ((dats m 0 c).after 3 t) = _
  rw [after0_3]
  funext j
  obtain ⟨p, q, rfl⟩ : ∃ (p : Fin 1024) (q : Fin 256), j = ix2 p q := ⟨j 0, j 1, eq_ix2 j⟩
  show out0_3 (iblk m c 0 t) (iblk m c 1 t) (iblk m c 2 t) (ix2 p q)
    = lin (xArr m c) (wArr m c) (bArr m c) (((cfg0.win 3).blk t).view.emb (ix2 p q))
  rw [emb_out]
  exact body_entry m c t p q

/-- An index of the result is in point t's block iff each coordinate is in the block's range on its axis. -/
theorem mem_blk (t : Fin cfg0.N) (i : S8192x4096.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v23).slice (win0_3.rect t)).set ↔ _
  rw [View.set_slice_whole, Rect.mem_set_unit]
  exact Iff.rfl

/-- Every index of the result is in the block of the point whose block indices are its row over 1024 and its column
    over 256. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- THE RESULT ARRAY after the region: lin of the three arrays as the region finds them. -/
theorem region_result (c : Dev nD) :
    (dats m 0 c).arrAt 3 cfg0.N = lin (xArr m c) (wArr m c) (bArr m c) :=
  (dats m 0 c).arrAt_eq_of_cover 3 _ (fun t _ => flushed_eq m c t) covered

end Cert.KernelIdeal.RegionValue

end
-- ==== Proof.HostSide.lean ====
/-
  The kernel program around its region, on the extended reals.

  Before the region the host lines unpack the quantised weight, rescale it group by group and add the correction
  matrix, which is the reference program's own weight stage line for line, and cast the sum to bf16 (the identity
  on the extended reals); they recast the input x (4 x 2048 x 4096) as a matrix of 8192 rows, row 2048 b + s being
  x's row (b, s), and the bias vector as one row.  After the region one line recasts the 8192 x 4096 result as
  4 x 2048 x 4096 in the same row order.  So the program's result at (b, s, o) is

      sum_{k<4096} x(b,s,k) W(o,k) + bias(o),          W the weight stage of the arguments.
-/
import proofs.«404815_j29094108463114_3_alg».proof.Proof.RegionValue
import proofs.«404815_j29094108463114_3_alg».proof.Proof.Gen.ReferenceIdeal.Read
import Idealize.ShloMosaic.Lib.StableHlo.Run

set_option maxRecDepth 16384

noncomputable section

namespace Cert.KernelIdeal.HostSide

open Cert.KernelIdeal Cert.KernelIdeal.Gen Cert.KernelIdeal.RegionValue
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The weight stage of the launch arguments: the packed words unpacked and rescaled, plus the correction. -/
abbrev weightOf (c : Dev nD) : FVec Ideal S4096x4096 .f32 :=
  Cert.ReferenceIdeal.Read.val_main_v19 (F := Ideal) (m ((c : Thread nD τ).loc main_arg1))
    (m ((c : Thread nD τ).loc main_arg2)) (m ((c : Thread nD τ).loc main_arg3)) (m ((c : Thread nD τ).loc main_arg4))

/-- The input x and the bias vector as launched. -/
abbrev xArg (c : Dev nD) : Vec Ideal S4x2048x4096 .f32 := m ((c : Thread nD τ).loc main_arg0)
abbrev biasArg (c : Dev nD) : Vec Ideal S4096 .f32 := m ((c : Thread nD τ).loc main_arg5)

/-- The left matrix the region finds is x recast to 8192 rows. -/
theorem xArr_eq (c : Dev nD) :
    xArr m c = shapeCast S8192x4096 (m ((c : Thread nD τ).loc main_arg0)) shapeCasts_S4x2048x4096_S8192x4096 := by
  show StableHlo.after hostOps0 (fun b => m (c, b)) (Proc.devRef .tc main_v21) = _
  after_results
  rfl

/-- The bias row the region finds is the bias vector recast as one row. -/
theorem bArr_eq (c : Dev nD) :
    bArr m c = shapeCast S1x4096 (m ((c : Thread nD τ).loc main_arg5)) shapeCasts_S4096_S1x4096 := by
  show StableHlo.after hostOps0 (fun b => m (c, b)) (Proc.devRef .tc main_v22) = _
  after_results
  rfl

set_option maxHeartbeats 2000000 in
/-- The weight the region finds is the weight stage of the arguments, cast to bf16. -/
theorem wArr_eq (c : Dev nD) :
    wArr m c = truncf .bf16 (weightOf m c) bitsLt_bf16_f32 := by
  show StableHlo.after hostOps0 (fun b => m (c, b)) (Proc.devRef .tc main_v20) = _
  after_results
  rfl

/-- Row 2048 b + s of the left matrix is x's row (b, s). -/
theorem xArr_apply (c : Dev nD) (b : Fin 4) (s : Fin 2048) (k : Fin 4096) (r : Fin 8192) (hr : r.val = b.val * 2048 + s.val) :
    (xArr m c (ix2 r k) : EReal) = xArg m c (ix3 b s k) := by
  rw [xArr_eq]
  exact shapeCast_apply _ shapeCasts_S4x2048x4096_S8192x4096 (ix2 r k) (ix3 b s k) (by
    rw [Shape.rowMajor_val_three, Shape.rowMajor_val_two]
    show (b.val * 2048 + s.val) * 4096 + k.val = r.val * 4096 + k.val
    rw [hr])

/-- The bias row's entry o is the bias vector's. -/
theorem bArr_apply (c : Dev nD) (o : Fin 4096) :
    (bArr m c (ix2 (0 : Fin 1) o) : EReal) = biasArg m c (ix1 o) := by
  rw [bArr_eq]
  exact shapeCast_apply _ shapeCasts_S4096_S1x4096 (ix2 (0 : Fin 1) o) (ix1 o) (by
    rw [Shape.rowMajor_val_one, Shape.rowMajor_val_two]
    show o.val = 0 * 4096 + o.val
    omega)

/-- The weight's entry (o, k) is the weight stage's. -/
theorem wArr_apply (c : Dev nD) (o k : Fin 4096) :
    (wArr m c (ix2 o k) : EReal) = weightOf m c (ix2 o k) := by
  rw [wArr_eq]
  rfl

/-- The array the program returns: the region's result recast to 4 x 2048 x 4096. -/
theorem result_eq (c : Dev nD) :
    Pipeline.afterTail₀ cfgs (dats m) 0 (V0 m) [hostOps1] c main_v24
      = shapeCast S4x2048x4096 (lin (xArr m c) (wArr m c) (bArr m c)) shapeCasts_S8192x4096_S4x2048x4096 := by
  unfold Pipeline.afterTail₀
  show StableHlo.after hostOps1 _ (Proc.devRef .tc main_v24) = _
  after_results
  rw [(Pipeline.withArrays_arr spec0 launch0.win.arr_inj c _ _ 3).trans (region_result m c)]
  rfl

/-- THE PROGRAM'S RESULT AT AN ENTRY. -/
theorem result_apply (c : Dev nD) (b : Fin 4) (s : Fin 2048) (o : Fin 4096) :
    (Pipeline.afterTail₀ cfgs (dats m) 0 (V0 m) [hostOps1] c main_v24 (ix3 b s o) : EReal)
      = (∑ k : Fin 4096, (xArg m c (ix3 b s k) : EReal) * (weightOf m c (ix2 o k) : EReal))
        + (biasArg m c (ix1 o) : EReal) := by
  rw [result_eq]
  have hlt : b.val * 2048 + s.val < 8192 := by have := b.isLt; have := s.isLt; omega
  refine (shapeCast_apply _ shapeCasts_S8192x4096_S4x2048x4096 (ix3 b s o) (ix2 (⟨b.val * 2048 + s.val, hlt⟩ : Fin 8192) o) (by
    rw [Shape.rowMajor_val_three, Shape.rowMajor_val_two]
    show (b.val * 2048 + s.val) * 4096 + o.val = (b.val * 2048 + s.val) * 4096 + o.val
    rfl)).trans ?_
  rw [lin_apply, bArr_apply]
  refine congrArg (· + (biasArg m c (ix1 o) : EReal)) (Finset.sum_congr rfl fun k _ => ?_)
  rw [xArr_apply m c b s k _ rfl, wArr_apply]

end Cert.KernelIdeal.HostSide

end
-- ==== Proof.RefSide.lean ====
/-
  The reference program's result read at one entry, on the extended reals.

  The reference contracts x (4 x 2048 x 4096) on its last axis against the last axis of the weight stage W
  (4096 x 4096) and adds the bias along the last axis: at (b, s, o)

      sum_{k<4096} x(b,s,k) W(o,k) + bias(o).

  The weight stage (the packed words unpacked and rescaled, plus the correction matrix) is left as it stands.
-/
import proofs.«404815_j29094108463114_3_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- At output (b, s, o) and contraction coordinate k the left operand is read at (b, s, k), -/
theorem lidx_eq (b : Fin 4) (s : Fin 2048) (o k : Fin 4096) : lidx_main_v20 (ix3 b s o) k = ix3 b s k :=
  funext fun a => by match a with | ⟨0, _⟩ => rfl | ⟨1, _⟩ => rfl | ⟨2, _⟩ => rfl
/-- the weight at (o, k), -/
theorem ridx_eq (b : Fin 4) (s : Fin 2048) (o k : Fin 4096) : ridx_main_v20 (ix3 b s o) k = ix2 o k :=
  funext fun a => by match a with | ⟨0, _⟩ => rfl | ⟨1, _⟩ => rfl
/-- and the bias, spread over b and s, at o. -/
theorem bidx_eq (b : Fin 4) (s : Fin 2048) (o : Fin 4096) : idx_main_v21 (idx_main_v22 (ix3 b s o)) = ix1 o :=
  funext fun a => by match a with | ⟨0, _⟩ => rfl

/-- THE REFERENCE'S RESULT AT AN ENTRY. -/
theorem result_apply (x0 : (⟨S4x2048x4096, .f32⟩ : BufTy).Contents (Elt Ideal)) (x1 : (⟨S8388608, .i32⟩ : BufTy).Contents (Elt Ideal))
    (x2 x3 : (⟨S131072, .f32⟩ : BufTy).Contents (Elt Ideal)) (x4 : (⟨S4096x4096, .f32⟩ : BufTy).Contents (Elt Ideal))
    (x5 : (⟨S4096, .f32⟩ : BufTy).Contents (Elt Ideal)) (b : Fin 4) (s : Fin 2048) (o : Fin 4096) :
    (val_main_v23 (F := Ideal) x0 x1 x2 x3 x4 x5 (ix3 b s o) : EReal)
      = (∑ k : Fin 4096, (x0 (ix3 b s k) : EReal) * (val_main_v19 (F := Ideal) x1 x2 x3 x4 (ix2 o k) : EReal))
        + (x5 (ix1 o) : EReal) := by
  rw [val_main_v23_apply, val_main_v20_apply, val_main_v22_apply, val_main_v21_apply, bidx_eq]
  simp only [lidx_eq, ridx_eq]
  rfl

end Cert.ReferenceIdeal.RefValue

end
-- ==== Proof.lean ====
/-
  A linear layer over a group-quantised weight, against its einsum reference, on the extended reals.

  Both programs build the same weight W (4096 x 4096) from the launch arguments by the same host lines: each packed
  word gives its low and its high four bits as two consecutive entries, the entries are shifted and scaled group by
  group of 128, and the correction matrix is added.  The reference then contracts x (4 x 2048 x 4096) with W on their
  last axes and adds the bias: result (b, s, o) = sum_{k<4096} x(b,s,k) W(o,k) + bias(o).

  The kernel program casts W to bf16 (no change on the extended reals), recasts x as 8192 rows, and runs one region
  over an 8 x 16 grid: at point (i, j) rows 1024 i ... of x meet rows 256 j ... of W, the 4096 columns taken in four
  chunks of 1024 whose products into the zero array are added one after the other onto zero, and the bias entries
  256 j ... are added to every row.  The four chunk sums are the whole contraction by the associativity of addition
  alone, so no entry has to be finite; the blocks tile the 8192 x 4096 result, which one host line recasts as
  4 x 2048 x 4096 in the same row order.  Entry by entry the two results are the same sum.

  The two word-level frames and the idealised kernel's frame are the generated frame certificates; the reference's
  frame is its generated run; no rewrite was applied when the kernel was idealised, so that claim is trivial.
-/
import proofs.«404815_j29094108463114_3_alg».proof.Defs
import proofs.«404815_j29094108463114_3_alg».proof.Proof.Gen.Kernel
import proofs.«404815_j29094108463114_3_alg».proof.Proof.Gen.Kernel.Frame
import proofs.«404815_j29094108463114_3_alg».proof.Proof.Gen.KernelIdeal
import proofs.«404815_j29094108463114_3_alg».proof.Proof.Gen.KernelIdeal.Frame
import proofs.«404815_j29094108463114_3_alg».proof.Proof.Gen.ReferenceIdeal
import proofs.«404815_j29094108463114_3_alg».proof.Proof.Gen.Pre_finite_inputs
import proofs.«404815_j29094108463114_3_alg».proof.Proof.Gen.ReferenceIdeal.Run
import proofs.«404815_j29094108463114_3_alg».proof.Proof.Gen.ReferenceIdeal.Read
import proofs.«404815_j29094108463114_3_alg».proof.Proof.KernelRun
import proofs.«404815_j29094108463114_3_alg».proof.Proof.HostSide
import proofs.«404815_j29094108463114_3_alg».proof.Proof.RefSide
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end, at every (b, s, o), with
    sum_{k<4096} x(b,s,k) W(o,k) + bias(o), W the weight stage of the arguments. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v24, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2.1, (hagree c).2.2.2.2.2]
  funext i
  obtain ⟨b, s, o, rfl⟩ : ∃ (b : Fin 4) (s : Fin 2048) (o : Fin 4096), i = ix3 b s o := ⟨i 0, i 1, i 2, eq_ix3 i⟩
  refine (Cert.ReferenceIdeal.RefValue.result_apply _ _ _ _ _ _ b s o).trans ?_
  exact (Cert.KernelIdeal.HostSide.result_apply m c b s o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
